-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel

variable [Facts]

def fn {F : FTy → Type} [FloatOps F] (main_arg0 : FVec F S131072x128 .f32) (main_arg1 : FVec F S131072x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  main_v8
-- ==== Kernel.lean ====
abbrev S131072x128 : Shape := ⟨2, ![131072, 128]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S1x1, .f32⟩
  | .hbm, ⟨3, _⟩ => ⟨S1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1, .f32⟩
  | .local _ .vmem, ⟨5, _⟩ => ⟨S1x1, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v94 : BitVec 1 := Scalar.cmpi .eq arg0 c63_i32
  let v95 : BitVec 32 := Scalar.extui v94
  let c0_i32_32 : BitVec 32 := 0#32
  let v96 : BitVec 1 := Scalar.cmpi .ne v95 c0_i32_32
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  reduces_S2048x1_S1 : S2048x1.Reduces [0] S1
  shapeCasts_S1_S1x1 : S1.ShapeCasts S1x1
  shapeCasts_S1x1_S1 : S1x1.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x128 : Shape := ⟨2, ![131072, 128]⟩
abbrev S_ : Shape := ⟨0, ![]⟩
abbrev S131072 : Shape := ⟨1, ![131072]⟩
abbrev S131072x1 : Shape := ⟨2, ![131072, 1]⟩
abbrev S1 : Shape := ⟨1, ![1]⟩

abbrev nBuf : Space → Nat
  | .hbm => 141
  | .vmem => 0
  | .smem => 0
  | _ => 0

abbrev hbmTy0_0 (i : Nat) : BufTy := match i % 128 with
  | 0 => ⟨S131072x128, .f32⟩
  | 1 => ⟨S131072x128, .f32⟩
  | 2 => ⟨S_, .f32⟩
  | 3 => ⟨S131072, .f32⟩
  | 4 => ⟨S131072x1, .f32⟩
  | 5 => ⟨S_, .f32⟩
  | 6 => ⟨S131072x1, .f32⟩
  | 7 => ⟨S131072x1, .f32⟩
  | 8 => ⟨S_, .f32⟩
  | 9 => ⟨S131072x1, .f32⟩
  | 10 => ⟨S131072x1, .f32⟩
  | 11 => ⟨S_, .f32⟩
  | 12 => ⟨S131072, .f32⟩
  | 13 => ⟨S131072x1, .f32⟩
  | 14 => ⟨S_, .f32⟩
  | 15 => ⟨S131072x1, .f32⟩
  | 16 => ⟨S131072x1, .f32⟩
  | 17 => ⟨S_, .f32⟩
  | 18 => ⟨S131072x1, .f32⟩
  | 19 => ⟨S131072x1, .f32⟩
  | 20 => ⟨S_, .i32⟩
  | 21 => ⟨S_, .f32⟩
  | 22 => ⟨S131072, .f32⟩
  | 23 => ⟨S131072x1, .f32⟩
  | 24 => ⟨S_, .f32⟩
  | 25 => ⟨S131072x1, .f32⟩
  | 26 => ⟨S131072x1, .f32⟩
  | 27 => ⟨S131072x128, .f32⟩
  | 28 => ⟨S131072x128, .f32⟩
  | 29 => ⟨S131072x128, .f32⟩
  | 30 => ⟨S_, .f32⟩
  | 31 => ⟨S_, .f32⟩
  | 32 => ⟨S_, .f32⟩
  | 33 => ⟨S_, .f32⟩
  | 34 => ⟨S131072, .f32⟩
  | 35 => ⟨S131072, .f32⟩
  | 36 => ⟨S131072, .f32⟩
  | 37 => ⟨S_, .f32⟩
  | 38 => ⟨S_, .i1⟩
  | 39 => ⟨S_, .f32⟩
  | 40 => ⟨S_, .f32⟩
  | 41 => ⟨S131072, .f32⟩
  | 42 => ⟨S131072, .f32⟩
  | 43 => ⟨S131072, .f32⟩
  | 44 => ⟨S_, .i32⟩
  | 45 => ⟨S_, .f32⟩
  | 46 => ⟨S131072, .f32⟩
  | 47 => ⟨S131072x1, .f32⟩
  | 48 => ⟨S_, .f32⟩
  | 49 => ⟨S131072x1, .f32⟩
  | 50 => ⟨S131072x1, .f32⟩
  | 51 => ⟨S131072x128, .f32⟩
  | 52 => ⟨S131072x128, .f32⟩
  | 53 => ⟨S131072x128, .f32⟩
  | 54 => ⟨S_, .f32⟩
  | 55 => ⟨S_, .f32⟩
  | 56 => ⟨S_, .f32⟩
  | 57 => ⟨S_, .f32⟩
  | 58 => ⟨S131072, .f32⟩
  | 59 => ⟨S131072, .f32⟩
  | 60 => ⟨S131072, .f32⟩
  | 61 => ⟨S_, .f32⟩
  | 62 => ⟨S_, .i1⟩
  | 63 => ⟨S_, .f32⟩
  | 64 => ⟨S_, .f32⟩
  | 65 => ⟨S131072, .f32⟩
  | 66 => ⟨S131072, .f32⟩
  | 67 => ⟨S131072, .f32⟩
  | 68 => ⟨S131072x128, .f32⟩
  | 69 => ⟨S131072x128, .f32⟩
  | 70 => ⟨S131072x128, .f32⟩
  | 71 => ⟨S131072x128, .f32⟩
  | 72 => ⟨S131072x128, .f32⟩
  | 73 => ⟨S_, .f32⟩
  | 74 => ⟨S131072, .f32⟩
  | 75 => ⟨S_, .f32⟩
  | 76 => ⟨S131072, .f32⟩
  | 77 => ⟨S131072, .f32⟩
  | 78 => ⟨S131072, .f32⟩
  | 79 => ⟨S_, .f32⟩
  | 80 => ⟨S131072, .f32⟩
  | 81 => ⟨S131072, .f32⟩
  | 82 => ⟨S131072, .f32⟩
  | 83 => ⟨S131072, .f32⟩
  | 84 => ⟨S131072, .f32⟩
  | 85 => ⟨S_, .f32⟩
  | 86 => ⟨S131072, .f32⟩
  | 87 => ⟨S131072, .f32⟩
  | 88 => ⟨S_, .f32⟩
  | 89 => ⟨S131072, .f32⟩
  | 90 => ⟨S131072, .f32⟩
  | 91 => ⟨S_, .f32⟩
  | 92 => ⟨S131072, .f32⟩
  | 93 => ⟨S131072, .f32⟩
  | 94 => ⟨S131072, .f32⟩
  | 95 => ⟨S131072, .f32⟩
  | 96 => ⟨S_, .f32⟩
  | 97 => ⟨S131072, .f32⟩
  | 98 => ⟨S_, .f32⟩
  | 99 => ⟨S131072, .f32⟩
  | 100 => ⟨S131072, .f32⟩
  | 101 => ⟨S131072x1, .f32⟩
  | 102 => ⟨S131072x128, .f32⟩
  | 103 => ⟨S131072x128, .f32⟩
  | 104 => ⟨S131072x128, .f32⟩
  | 105 => ⟨S_, .f32⟩
  | 106 => ⟨S131072, .f32⟩
  | 107 => ⟨S131072x1, .f32⟩
  | 108 => ⟨S131072x128, .f32⟩
  | 109 => ⟨S131072x128, .f32⟩
  | 110 => ⟨S_, .f32⟩
  | 111 => ⟨S131072, .f32⟩
  | 112 => ⟨S_, .f32⟩
  | 113 => ⟨S131072, .f32⟩
  | 114 => ⟨S131072, .f32⟩
  | 115 => ⟨S131072x1, .f32⟩
  | 116 => ⟨S131072x128, .f32⟩
  | 117 => ⟨S131072x128, .f32⟩
  | 118 => ⟨S131072x128, .f32⟩
  | 119 => ⟨S_, .f32⟩
  | 120 => ⟨S131072, .f32⟩
  | 121 => ⟨S131072x1, .f32⟩
  | 122 => ⟨S131072x128, .f32⟩
  | 123 => ⟨S131072x128, .f32⟩
  | 124 => ⟨S131072x128, .f32⟩
  | 125 => ⟨S131072x128, .f32⟩
  | 126 => ⟨S_, .f32⟩
  | 127 => ⟨S131072, .f32⟩
  | _ => ⟨S131072x128, .f32⟩

abbrev hbmTy0_1 (i : Nat) : BufTy := match i % 128 with
  | 0 => ⟨S_, .f32⟩
  | 1 => ⟨S131072, .f32⟩
  | 2 => ⟨S131072, .f32⟩
  | 3 => ⟨S131072, .f32⟩
  | 4 => ⟨S131072, .f32⟩
  | 5 => ⟨S_, .f32⟩
  | 6 => ⟨S131072, .f32⟩
  | 7 => ⟨S131072, .f32⟩
  | 8 => ⟨S131072, .f32⟩
  | 9 => ⟨S131072, .f32⟩
  | 10 => ⟨S_, .f32⟩
  | 11 => ⟨S_, .f32⟩
  | 12 => ⟨S1, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_cst_1 : Ref sig .tc := ⟨.hbm, 31, rfl⟩
abbrev main_call0_call0_v8 : Ref sig .tc := ⟨.hbm, 32, rfl⟩
abbrev main_call0_call0_cst_2 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_cst_3 : Ref sig .tc := ⟨.hbm, 37, rfl⟩
abbrev main_call0_call0_v12 : Ref sig .tc := ⟨.hbm, 38, rfl⟩
abbrev main_call0_call0_cst_4 : Ref sig .tc := ⟨.hbm, 39, rfl⟩
abbrev main_call0_call0_call0_v0 : Ref sig .tc := ⟨.hbm, 40, rfl⟩
abbrev main_call0_call0_call0_v1 : Ref sig .tc := ⟨.hbm, 41, rfl⟩
abbrev main_call0_v0 : Ref sig .tc := ⟨.hbm, 42, rfl⟩
abbrev main_v12 : Ref sig .tc := ⟨.hbm, 43, rfl⟩
abbrev main_c_5 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_cst_0 : Ref sig .tc := ⟨.hbm, 48, rfl⟩
abbrev main_call1_call0_v2 : Ref sig .tc := ⟨.hbm, 49, rfl⟩
abbrev main_call1_call0_v3 : Ref sig .tc := ⟨.hbm, 50, rfl⟩
abbrev main_call1_call0_v4 : Ref sig .tc := ⟨.hbm, 51, rfl⟩
abbrev main_call1_call0_v5 : Ref sig .tc := ⟨.hbm, 52, rfl⟩
abbrev main_call1_call0_v6 : Ref sig .tc := ⟨.hbm, 53, rfl⟩
abbrev main_call1_call0_v7 : Ref sig .tc := ⟨.hbm, 54, rfl⟩
abbrev main_call1_call0_cst_1 : Ref sig .tc := ⟨.hbm, 55, rfl⟩
abbrev main_call1_call0_v8 : Ref sig .tc := ⟨.hbm, 56, rfl⟩
abbrev main_call1_call0_cst_2 : Ref sig .tc := ⟨.hbm, 57, rfl⟩
abbrev main_call1_call0_v9 : Ref sig .tc := ⟨.hbm, 58, rfl⟩
abbrev main_call1_call0_v10 : Ref sig .tc := ⟨.hbm, 59, rfl⟩
abbrev main_call1_call0_v11 : Ref sig .tc := ⟨.hbm, 60, rfl⟩
abbrev main_call1_call0_cst_3 : Ref sig .tc := ⟨.hbm, 61, rfl⟩
abbrev main_call1_call0_v12 : Ref sig .tc := ⟨.hbm, 62, rfl⟩
abbrev main_call1_call0_cst_4 : Ref sig .tc := ⟨.hbm, 63, rfl⟩
abbrev main_call1_call0_call0_v0 : Ref sig .tc := ⟨.hbm, 64, rfl⟩
abbrev main_call1_call0_call0_v1 : Ref sig .tc := ⟨.hbm, 65, rfl⟩
abbrev main_call1_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_6 : Ref sig .tc := ⟨.hbm, 73, rfl⟩
abbrev main_v19 : Ref sig .tc := ⟨.hbm, 74, rfl⟩
abbrev main_cst_7 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_8 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_9 : Ref sig .tc := ⟨.hbm, 85, rfl⟩
abbrev main_v28 : Ref sig .tc := ⟨.hbm, 86, rfl⟩
abbrev main_v29 : Ref sig .tc := ⟨.hbm, 87, rfl⟩
abbrev main_cst_10 : Ref sig .tc := ⟨.hbm, 88, rfl⟩
abbrev main_v30 : Ref sig .tc := ⟨.hbm, 89, rfl⟩
abbrev main_v31 : Ref sig .tc := ⟨.hbm, 90, rfl⟩
abbrev main_cst_11 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_cst_12 : Ref sig .tc := ⟨.hbm, 96, rfl⟩
abbrev main_v36 : Ref sig .tc := ⟨.hbm, 97, rfl⟩
abbrev main_cst_13 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_14 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_15 : Ref sig .tc := ⟨.hbm, 110, rfl⟩
abbrev main_v47 : Ref sig .tc := ⟨.hbm, 111, rfl⟩
abbrev main_cst_16 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_17 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_cst_18 : Ref sig .tc := ⟨.hbm, 126, rfl⟩
abbrev main_v60 : Ref sig .tc := ⟨.hbm, 127, rfl⟩
abbrev main_cst_19 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_cst_20 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_cst_21 : Ref sig .tc := ⟨.hbm, 138, rfl⟩
abbrev main_v69 : Ref sig .tc := ⟨.hbm, 139, rfl⟩
abbrev main_v70 : Ref sig .tc := ⟨.hbm, 140, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  bcast_S_S131072 : S_.BroadcastsInDim S131072 (![] : Fin 0 → Fin S131072.rank)
  reducesTo_S131072_S_d0 : S131072.ReducesTo [0] S_
  shapeCasts_S_S1 : S_.ShapeCasts S1

variable [Facts₀]

class Facts : Prop extends Facts₀ where

variable [Facts]
-- ==== Proof.KCol.lean ====
/-
  The per-row losses of a tile, as the kernel body computes them from its two input blocks: a [2048, 1] column.
-/
import proofs.«168679_j28741921145431_1_alg».proof.Proof.Gen.KernelIdeal.Skeleton

noncomputable section

namespace Cert.KernelIdeal.TileValue

open Cert.KernelIdeal Cert.KernelIdeal.Gen Idealize.ShloMosaic

/-- The per-row losses of a tile, as the body computes them from its two input blocks. -/
def lossCol {F : FTy → Type} [FloatOps F] (x0 x1 : Vec F S2048x128 .f32) : FVec F S2048x1 .f32 :=
  k0_pay8 x0 x1 (k0_pay5 x0) (k0_pay6 x1) (k0_pay7 x0 x1) (Scalar.ofBits .f32 0x42FE0000#32)

end Cert.KernelIdeal.TileValue

end
-- ==== Proof.KCase.lean ====
/-
  What each control case of the kernel body leaves behind, as values. The body loads its two input blocks whole,
  computes the column of per-row losses, and stores into the one-element accumulator what it held plus the
  column's sum. At the first grid point it first stores zero there, so the update reads that zero back; at the
  last point it then copies the accumulator into the output block. So in every case the accumulator ends at the
  update applied to what it held (zero at the first point), and at the last point the output holds the same.
-/
import proofs.«168679_j28741921145431_1_alg».proof.Proof.Gen.KernelIdeal.Frame
import proofs.«168679_j28741921145431_1_alg».proof.Proof.KCol
import Idealize.ShloMosaic.Lib.Pipeline.Value
import Idealize.ShloMosaic.Lib.Tactic

noncomputable section
open Idealize.ShloMosaic Idealize.ShloMosaic.TcCoe Idealize.SL.Sem Idealize.ShloMosaic.Tactic
open Idealize.ShloMosaic.Pipeline (Dat)

namespace Cert.KernelIdeal.CaseValue
open Cert.KernelIdeal Cert.KernelIdeal.Gen Cert.KernelIdeal.TileValue

variable {F : FTy → Type} [FloatOps F]

/-- The zero offsets, however spelt. -/
theorem hz : (![0, 0] : Fin 2 → Nat) = fun _ => 0 := funext fun a => by fin_cases a <;> rfl

/-- A point that is neither first nor last: the accumulator, holding `xs0`, ends at the update of `xs0`. -/
theorem sout_B (c : Dev nD) (i : grid0.Coords) (a1 : Memref sig .tc .vmem S2048x128 .f32) (h1 : a1.IsWhole)
    (a2 : Memref sig .tc .vmem S2048x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S2048x128 .f32) (xs0 : Vec F S1x1 .f32) :
    sout0_B_0 c i a1 h1 a2 h2 a3 h3 a4 h4 hc0 hc1 x0 x1 xs0 = k0_pay1 (lossCol x0 x1) xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  unfold lossCol
  simp only [View.readAt_eq_ld, h1.read_unread, h2.read_unread, h4.read_unread, View.ld_unit_zero (S := S2048x128) hz,
    View.ld_unit_zero (S := S1x1) hz]

/-- The first point: zero is stored, read back, and updated. -/
theorem sout_A (c : Dev nD) (i : grid0.Coords) (a1 : Memref sig .tc .vmem S2048x128 .f32) (h1 : a1.IsWhole)
    (a2 : Memref sig .tc .vmem S2048x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S2048x128 .f32) :
    sout0_A_0 c i a1 h1 a2 h2 a3 h3 a4 h4 hc0 hc1 x0 x1 = k0_pay1 (lossCol x0 x1) (k0_pay2 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  unfold lossCol
  simp only [View.readAt_eq_ld, h1.read_unread, h2.read_unread, h4.read_unread, View.ld_unit_zero (S := S2048x128) hz,
    View.ld_unit_zero (S := S1x1) hz]

/-- The last point: the accumulator as at any later point … -/
theorem sout_C (c : Dev nD) (i : grid0.Coords) (a1 : Memref sig .tc .vmem S2048x128 .f32) (h1 : a1.IsWhole)
    (a2 : Memref sig .tc .vmem S2048x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x128 .f32) (xs0 : Vec F S1x1 .f32) :
    sout0_C_0 c i a1 h1 a2 h2 a3 h3 a4 h4 hc0 hc1 x0 x1 xs0 = k0_pay1 (lossCol x0 x1) xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  unfold lossCol
  simp only [View.readAt_eq_ld, h1.read_unread, h2.read_unread, h4.read_unread, View.ld_unit_zero (S := S2048x128) hz,
    View.ld_unit_zero (S := S1x1) hz]

/-- … and the output block, which is the accumulator read back after its update. -/
theorem out_C (c : Dev nD) (i : grid0.Coords) (a1 : Memref sig .tc .vmem S2048x128 .f32) (h1 : a1.IsWhole)
    (a2 : Memref sig .tc .vmem S2048x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x128 .f32) (xs0 : Vec F S1x1 .f32) :
    out0_C_2 c i a1 h1 a2 h2 a3 h3 a4 h4 hc0 hc1 x0 x1 xs0 = k0_pay1 (lossCol x0 x1) xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  unfold lossCol
  simp only [View.readAt_eq_ld, h1.read_unread, h2.read_unread, h4.read_unread, View.ld_unit_zero (S := S2048x128) hz,
    View.ld_unit_zero (S := S1x1) hz]

end Cert.KernelIdeal.CaseValue

end
-- ==== Proof.KRun.lean ====
/-
  The kernel's run read as values, at any float instance. The grid has 64 points; the body carries a one-element
  accumulator from point to point: zero plus the first tile's update at point 0, then each later tile's update of what
  the point before left. The output block is stored at the last point only, from the accumulator, and is written back
  there; it is the whole [1, 1] result array, which the one host line after the region reshapes to a vector of one.
-/
import proofs.«168679_j28741921145431_1_alg».proof.Proof.Gen.KernelIdeal.Frame
import proofs.«168679_j28741921145431_1_alg».proof.Proof.KCase
import Idealize.ShloMosaic.Lib.Pipeline.Value
import Idealize.ShloMosaic.Lib.StableHlo.Run
import Idealize.ShloMosaic.Lib.Tactic

noncomputable section
open Idealize.ShloMosaic Idealize.ShloMosaic.TcCoe Idealize.SL.Sem
open Idealize.ShloMosaic.Pipeline (Dat)

namespace Cert.KernelIdeal.RunValue
open Cert.KernelIdeal Cert.KernelIdeal.Gen Cert.KernelIdeal.TileValue Cert.KernelIdeal.CaseValue

variable {F : FTy → Type} [FloatOps F]
variable (m : (ℓ : Loc nD τ sig) → Buf (Elt F) ℓ) (ρ : Dev nD → PrngReg)

theorem hN : cfg0.N = 64 := N_0

/-- The two input blocks at a point, at their literal type. -/
abbrev xblk (c : Dev nD) (t : Fin cfg0.N) : Vec F S2048x128 .f32 := iblk m c 0 t
abbrev yblk (c : Dev nD) (t : Fin cfg0.N) : Vec F S2048x128 .f32 := iblk m c 1 t

/-- The accumulator after point n: the update of zero at the first point, of what the point before left afterwards. -/
def acc (c : Dev nD) : (n : ℕ) → n < cfg0.N → Vec F S1x1 .f32
  | 0, h => k0_pay1 (lossCol (xblk m c ⟨0, h⟩) (yblk m c ⟨0, h⟩)) (k0_pay2 (F := F))
  | n + 1, h => k0_pay1 (lossCol (xblk m c ⟨n + 1, h⟩) (yblk m c ⟨n + 1, h⟩)) (acc c n (Nat.lt_of_succ_lt h))

/-- What the frame says the carried accumulator holds after point n is that recursion: by induction on the point. -/
theorem scratch_eq (c : Dev nD) : ∀ (n : ℕ) (h : n < cfg0.N), (outsAt0 m c n h).2 = acc m c n h
  | 0, h => by
    rw [outsAt0_A m c ⟨0, h⟩ rfl (by dsimp only; omega)]
    dsimp only
    rw [sout_A]
    rfl
  | n + 1, h => by
    have hlt : n + 1 < 64 := lt_of_lt_of_eq h (hN)
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [sout_C]
      show k0_pay1 _ (outsAt0 m c n _).2 = k0_pay1 _ (acc m c n _)
      rw [scratch_eq c n]
    · rw [outsAt0_B m c ⟨n + 1, h⟩ h0 h1]
      dsimp only
      rw [sout_B]
      show k0_pay1 _ (outsAt0 m c n _).2 = k0_pay1 _ (acc m c n _)
      rw [scratch_eq c n]

/-- The last point. -/
abbrev tLast : Fin cfg0.N := ⟨63, by rw [hN]; decide⟩

/-- At the last point the output block holds the accumulator after that point. -/
theorem out_last (c : Dev nD) : (outsAt0 m c tLast.val tLast.isLt).1 = acc m c 63 tLast.isLt := by
  have h0 : ¬(tLast : Fin cfg0.N).val % 64 = 0 := by decide
  have h1 : (tLast : Fin cfg0.N).val % 64 = 63 := by decide
  rw [outsAt0_C m c tLast h0 h1]
  dsimp only
  rw [out_C]
  show k0_pay1 _ (outsAt0 m c 62 _).2 = k0_pay1 _ (acc m c 62 _)
  rw [scratch_eq m c 62]

/-- The result array's contents after the region: the accumulator after the last point. -/
abbrev result (c : Dev nD) : Buf (Elt F) ((c : Thread nD τ).loc main_v0) := acc m c 63 tLast.isLt

/-- The only write-back is at the last point, and it writes the accumulator: the output's block there is the whole
    one-element array, read through zero offsets. -/
theorem flushed_eq (c : Dev nD) (t : Fin cfg0.N) (hf : (cfg0.win 2).flush t = true) :
    (dats m 0 c).flushed 2 t = ((cfg0.win 2).blk t).view.read (Elt F) (result m c) := by
  have h63 : t.val = 63 := by
    have h1 := (flush0_2 t).mp hf
    have h2 := lt_of_lt_of_eq t.isLt hN
    omega
  obtain rfl : t = tLast := Fin.ext h63
  show (cfg0.win 2).cut (grid0.coords tLast) ((dats m 0 c).after 2 tLast) = _
  rw [after0_2, out_last]
  have hz' : (fun a => win0_2.index tLast a * main_v0.ty.shape.size a) = fun _ => 0 :=
    funext fun a => by fin_cases a <;> decide
  exact (Memref.read_access_unit_zero (Elt F) main_v0 hz' (fun a => by rw [congrFun hz' a]; simp) (result m c)).symm

/-- That block covers the array: its offsets are zero, its extents one, and an index of a [1, 1] array is (0, 0). -/
theorem cover_last (i : ((cfg0.win 2).arr.view.loc ((0 : Dev nD).tc : Thread nD τ)).2.ty.Idx) :
    i ∈ ((cfg0.win 2).blk tLast).view.set := by
  show i ∈ ((View.whole main_v0).slice (win0_2.rect tLast)).set
  rw [View.set_slice_whole, Rect.mem_set_unit]
  intro a
  have hoff : win0_2.index tLast a * win0_2.size a = 0 := by revert a; decide +kernel
  have hsz : win0_2.xsize (grid0.coords tLast) a = 1 := by revert a; decide +kernel
  have hi : (i a : Nat) < 1 := by
    have h := (i a).isLt
    revert h; revert i
    fin_cases a <;> exact fun _ h => h
  show win0_2.index tLast a * win0_2.size a ≤ (i a : Nat)
    ∧ (i a : Nat) < win0_2.index tLast a * win0_2.size a + win0_2.xsize (grid0.coords tLast) a
  omega

/-- So the result array ends holding the accumulator after the last point. -/
theorem final (c : Dev nD) : (dats m 0 c).arrAt 2 cfg0.N = result m c :=
  (dats m 0 c).arrAt_eq_of_cover 2 (result m c) (flushed_eq m c) fun i =>
    ⟨tLast, (flush0_2 tLast).mpr rfl, by
      obtain rfl : c = 0 := Subsingleton.elim _ _
      exact cover_last i⟩

/-- The line after the region reshapes that one-element array into a one-element vector. -/
theorem tail_eq (c : Dev nD) :
    Pipeline.afterTail₀ cfgs (dats m) 0 (V0 m) [hostOps1] c main_v1 = shapeCast S1 (result m c) shapeCasts_S1x1_S1 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = result m c :=
    (Pipeline.withArrays_arr spec0 launch0.win.arr_inj c _ _ 2).trans (final m c)
  rw [e]
  rfl

/-- The run, read: every weakly fair execution ends with the result vector at the reshaped accumulator after the last
    point, and the two arguments as they were. -/
theorem run : θ_run defs (onTc (τ := τ) (main (F := F))) ⟨m, fun _ => 0, ρ⟩ fun r => ∀ c : Dev nD,
      r.2.mem ((c.tc : Thread nD τ).loc main_v1) = shapeCast S1 (result m c) shapeCasts_S1x1_S1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.RunValue

end
-- ==== Proof.Spec.lean ====
/-
  The specification both programs meet, over the extended reals.

  A row is 128 numbers. For two rows x and y the loss of the pair is
      |c| * (0 - log ((c + 1 + eps) / 2)) + (1 - |c|) * (sum_k |p_k - q_k|) / 128
  where c is the cube of cov x y / (std x * std y + eps), the mean of a row is its sum over 128, cov and the
  variance divide by 127, cov is taken about the means shifted by eps, and p, q are the softmaxes of the rows
  (each row shifted by its own maximum). The result of either program is the sum of that loss over all 131072
  rows; the kernel forms it tile by tile (64 tiles of 2048 rows), the reference in one sum. Addition on the
  extended reals is commutative and associative, so the two groupings agree (`tiles_eq_total`): no other law is
  used, and none that needs the inputs finite.
-/
import Idealize.ShloMosaic.PureOps.Ideal
import Idealize.ShloMosaic.Lib.ValueIdx

noncomputable section

namespace CorLoss

open Idealize.ShloMosaic Idealize.ShloMosaic.ValueIdx

/-- The float words the two programs share, read at the ideal instance. -/
abbrev c128 : EReal := Ideal.ofBits .f32 0x43000000#32
abbrev c127 : EReal := Ideal.ofBits .f32 0x42FE0000#32
abbrev ceps : EReal := Ideal.ofBits .f32 0x3A83126F#32
abbrev cone : EReal := Ideal.ofBits .f32 0x3F800000#32
abbrev ctwo : EReal := Ideal.ofBits .f32 0x40000000#32
abbrev cninf : EReal := Ideal.ofBits .f32 0xFF800000#32

/-- A row's mean: its sum over 128. -/
def mean (x : Fin 128 → EReal) : EReal := Ideal.div (∑ k : Fin 128, x k) c128

/-- A row's sample standard deviation: the squared deviations from the mean, summed, over 127, rooted. -/
def std (x : Fin 128 → EReal) : EReal :=
  Ideal.sqrt (Ideal.div (∑ k : Fin 128, (x k - mean x) * (x k - mean x)) c127)

/-- The covariance of two rows about their means shifted by eps, over 127. -/
def cov (x y : Fin 128 → EReal) : EReal :=
  Ideal.div (∑ k : Fin 128, (x k - (mean x + ceps)) * (y k - (mean y + ceps))) c127

/-- The correlation with eps in the denominator, and its cube. -/
def cor (x y : Fin 128 → EReal) : EReal := Ideal.div (cov x y) (std x * std y + ceps)
def cor3 (x y : Fin 128 → EReal) : EReal := cor x y * cor x y * cor x y

/-- A row's maximum, folded from minus infinity. -/
def rowMax (x : Fin 128 → EReal) : EReal := (Finset.univ : Finset (Fin 128)).fold max cninf x

/-- The softmax of a row at a lane. -/
def smax (x : Fin 128 → EReal) (k : Fin 128) : EReal :=
  Ideal.div (Ideal.exp (x k - rowMax x)) (∑ j : Fin 128, Ideal.exp (x j - rowMax x))

/-- The mean absolute difference of the two softmaxes (|a| is max a (-a)). -/
def emd (x y : Fin 128 → EReal) : EReal :=
  Ideal.div (∑ k : Fin 128, max (smax x k - smax y k) (-(smax x k - smax y k))) c128

/-- The logarithmic term, as 0 - log. -/
def tl1 (x y : Fin 128 → EReal) : EReal := 0 - Ideal.log (Ideal.div (cor3 x y + cone + ceps) ctwo)

/-- The loss of one pair of rows. -/
def rowLoss (x y : Fin 128 → EReal) : EReal :=
  max (cor3 x y) (-(cor3 x y)) * tl1 x y + (cone - max (cor3 x y) (-(cor3 x y))) * emd x y

/-- Row r of a [n, 128] array. -/
abbrev rowOf {n : Nat} (X : (⟨2, ![n, 128]⟩ : Shape).Idx → EReal) (r : Fin n) : Fin 128 → EReal := fun k => X (ix2 r k)

/-- The loss summed over the 2048 rows of a tile. -/
def tileSum (X Y : (⟨2, ![2048, 128]⟩ : Shape).Idx → EReal) : EReal :=
  ∑ r : Fin 2048, rowLoss (rowOf X r) (rowOf Y r)

/-- The loss summed over all rows. -/
def total (X Y : (⟨2, ![131072, 128]⟩ : Shape).Idx → EReal) : EReal :=
  ∑ r : Fin 131072, rowLoss (rowOf X r) (rowOf Y r)

/-- Tile t of a [131072, 128] array: rows 2048 t … 2048 t + 2047. -/
def tileOf (X : (⟨2, ![131072, 128]⟩ : Shape).Idx → EReal) (t : Fin 64) : (⟨2, ![2048, 128]⟩ : Shape).Idx → EReal :=
  fun j => X (ix2 (⟨2048 * t.val + (j 0).val, by have := t.isLt; have : (j 0).val < 2048 := (j 0).isLt; omega⟩ : Fin 131072) (j 1))

theorem rowOf_tileOf (X : (⟨2, ![131072, 128]⟩ : Shape).Idx → EReal) (t : Fin 64) (r : Fin 2048) :
    rowOf (tileOf X t) r = rowOf X (⟨2048 * t.val + r.val, by have := t.isLt; have := r.isLt; omega⟩ : Fin 131072) := rfl

/-- The sum over the 64 tiles of the tile sums is the sum over all rows: one sum regrouped. -/
theorem tiles_eq_total (X Y : (⟨2, ![131072, 128]⟩ : Shape).Idx → EReal) :
    ∑ t : Fin 64, tileSum (tileOf X t) (tileOf Y t) = total X Y := by
  unfold tileSum total
  simp only [rowOf_tileOf]
  rw [← Finset.sum_product', Finset.univ_product_univ]
  let e : Fin 64 × Fin 2048 ≃ Fin 131072 :=
    { toFun := fun p => ⟨2048 * p.1.val + p.2.val, by have := p.1.isLt; have := p.2.isLt; omega⟩
      invFun := fun r => (⟨r.val / 2048, by have := r.isLt; omega⟩, ⟨r.val % 2048, Nat.mod_lt _ (by norm_num)⟩)
      left_inv := fun p => by
        have h1 := p.1.isLt; have h2 := p.2.isLt
        apply Prod.ext <;> apply Fin.ext <;> simp only <;> omega
      right_inv := fun r => by apply Fin.ext; simp only; omega }
  exact e.sum_comp (fun r => rowLoss (rowOf X r) (rowOf Y r))

end CorLoss

end
-- ==== Proof.KTile.lean ====
/-
  A tile of the kernel read row by row. The body's arithmetic on two [2048, 128] blocks ends in a [2048, 1]
  column holding one loss per row; row r of that column depends on row r of each block only, and is the
  specification's `rowLoss` of the two rows. The accumulator's update adds the column's sum to what it held.
-/
import proofs.«168679_j28741921145431_1_alg».proof.Proof.Gen.KernelIdeal.Skeleton
import proofs.«168679_j28741921145431_1_alg».proof.Proof.KCol
import proofs.«168679_j28741921145431_1_alg».proof.Proof.Spec
import Idealize.ShloMosaic.Lib.ValueIdx
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-! ## Layout: a lane reduction kept as a column, and a column spread over the lanes -/

/-- The keepdims cast [2048] → [2048, 1]: the column at (r, z) is the vector at r. -/
private theorem col_apply {α : Type} (w : S2048.Idx → α) (hc : S2048.ShapeCasts S2048x1) (r : Fin 2048) (z : Fin 1) :
    shapeCast S2048x1 w hc (ix2 r z) = w (ix1 r) :=
  shapeCast_apply w hc _ _ (by
    have hz : z.val = 0 := by omega
    rw [Shape.rowMajor_val_one, Shape.rowMajor_val_two]
    show r.val = r.val * 1 + z.val
    rw [hz, Nat.mul_one, Nat.add_zero])

/-- The index a lane reduction reads: row r with lane k put back. -/
private theorem lift_row (h : S2048x128.Reduces [1] S2048) (r : Fin 2048) (k : Fin 128) :
    h.lift (ix1 r) k = ix2 r k := by
  funext a
  match a with
  | ⟨0, _⟩ => exact Fin.ext rfl
  | ⟨1, _⟩ => exact Fin.ext rfl

/-- A sum over the lanes kept as a column: at (r, z) the sum of row r. -/
private theorem rowSum_apply (v : FVec Ideal S2048x128 .f32) (h : S2048x128.Reduces [1] S2048) (hφ : FKind.Formats .f32)
    (hacc : (0x00000000#32 : BitVec 32) = 0x00000000#32) (hc : S2048.ShapeCasts S2048x1)
    (r : Fin 2048) (z : Fin 1) :
    shapeCast S2048x1 (multiReduction .add [1] S2048 v 0x00000000#32 h hφ hacc) hc (ix2 r z)
      = ∑ k : Fin 128, v (ix2 r k) := by
  refine (col_apply _ hc r z).trans ?_
  refine (Ideal.multiReduction_add_single v 0x00000000#32 h hφ hacc (ix1 r)).trans ?_
  exact Finset.sum_congr rfl fun k _ => congrArg v (lift_row h r k)

/-- A maximum over the lanes kept as a column: at (r, z) the fold of max over row r from minus infinity. -/
private theorem rowMax_apply (v : FVec Ideal S2048x128 .f32) (h : S2048x128.Reduces [1] S2048) (hφ : FKind.Formats .f32)
    (hacc : (0xFF800000#32 : BitVec 32) = 0xFF800000#32) (hc : S2048.ShapeCasts S2048x1)
    (r : Fin 2048) (z : Fin 1) :
    shapeCast S2048x1 (multiReduction .maximumf [1] S2048 v 0xFF800000#32 h hφ hacc) hc (ix2 r z)
      = (Finset.univ : Finset (Fin 128)).fold max (Ideal.ofBits .f32 0xFF800000#32) (fun k => v (ix2 r k)) := by
  refine (col_apply _ hc r z).trans ?_
  refine (Ideal.multiReduction_maximumf_single v 0xFF800000#32 h hφ hacc (ix1 r)).trans ?_
  have e : (v ∘ h.lift (ix1 r)) = fun k : Fin 128 => v (ix2 r k) := funext fun k => congrArg v (lift_row h r k)
  rw [e]
  rfl

/-- A column spread over the lanes: at (r, k) the column at (r, 0). -/
private theorem spread_apply {α : Type} (c : S2048x1.Idx → α) (hb : S2048x1.Broadcasts S2048x128) (r : Fin 2048) (k : Fin 128) :
    broadcastTo S2048x128 c hb (ix2 r k) = c (ix2 r (0 : Fin 1)) := by
  refine broadcastTo_apply c hb (ix2 r k) (ix2 r (0 : Fin 1)) fun ax => ?_
  match ax with
  | ⟨0, _⟩ => rfl
  | ⟨1, _⟩ => rfl

/-! ## The unary operations read at an index -/

private theorem sqrt_apply {s : Shape} (a : FVec Ideal s .f32) (i : s.Idx) : sqrt a i = Ideal.sqrt (a i) := rfl
private theorem exp_apply {s : Shape} (a : FVec Ideal s .f32) (i : s.Idx) : exp a i = Ideal.exp (a i) := rfl
private theorem log_apply {s : Shape} (a : FVec Ideal s .f32) (i : s.Idx) : log a i = Ideal.log (a i) := rfl
private theorem absf_apply {s : Shape} (a : FVec Ideal s .f32) (i : s.Idx) : absf a i = max (a i) (-(a i)) := rfl
private theorem splat_apply {s : Shape} (b : BitVec 32) (i : s.Idx) :
    broadcast s (Scalar.ofBits (F := Ideal) .f32 b) i = Ideal.ofBits .f32 b := rfl

/-! ## The row statistics -/

/-- The first block's mean column: at (r, z) the mean of row r. -/
private theorem pay3_apply (x : FVec Ideal S2048x128 .f32) (r : Fin 2048) (z : Fin 1) :
    k0_pay3 (F := Ideal) x (ix2 r z) = CorLoss.mean (CorLoss.rowOf x r) := by
  unfold k0_pay3 CorLoss.mean
  exact congrArg (fun s => Ideal.div s (Ideal.ofBits .f32 0x43000000#32)) (rowSum_apply x _ _ _ _ r z)

/-- The second block's mean column, the same term. -/
private theorem pay4_apply (y : FVec Ideal S2048x128 .f32) (r : Fin 2048) (z : Fin 1) :
    k0_pay4 (F := Ideal) y (ix2 r z) = CorLoss.mean (CorLoss.rowOf y r) := by
  unfold k0_pay4 CorLoss.mean
  exact congrArg (fun s => Ideal.div s (Ideal.ofBits .f32 0x43000000#32)) (rowSum_apply y _ _ _ _ r z)

/-- The first block's deviation column: at (r, z) the sample standard deviation of row r. -/
private theorem pay5_apply (x : FVec Ideal S2048x128 .f32) (r : Fin 2048) (z : Fin 1) :
    k0_pay5 (F := Ideal) x (ix2 r z) = CorLoss.std (CorLoss.rowOf x r) := by
  unfold k0_pay5 CorLoss.std
  refine congrArg (fun s => Ideal.sqrt (Ideal.div s (Ideal.ofBits .f32 0x42FE0000#32))) ?_
  refine (rowSum_apply _ _ _ _ _ r z).trans ?_
  refine Finset.sum_congr rfl fun k _ => ?_
  simp only [mulf_apply, subf_apply, spread_apply, pay3_apply]

/-- The second block's deviation column. -/
private theorem pay6_apply (y : FVec Ideal S2048x128 .f32) (r : Fin 2048) (z : Fin 1) :
    k0_pay6 (F := Ideal) y (ix2 r z) = CorLoss.std (CorLoss.rowOf y r) := by
  unfold k0_pay6 CorLoss.std
  refine congrArg (fun s => Ideal.sqrt (Ideal.div s (Ideal.ofBits .f32 0x42FE0000#32))) ?_
  refine (rowSum_apply _ _ _ _ _ r z).trans ?_
  refine Finset.sum_congr rfl fun k _ => ?_
  simp only [mulf_apply, subf_apply, spread_apply, pay4_apply]

/-- The cross-product column: at (r, z) the sum over the lanes of the two rows' deviations from their shifted means. -/
private theorem pay7_apply (x y : FVec Ideal S2048x128 .f32) (r : Fin 2048) (z : Fin 1) :
    k0_pay7 (F := Ideal) x y (ix2 r z)
      = ∑ k : Fin 128, (CorLoss.rowOf x r k - (CorLoss.mean (CorLoss.rowOf x r) + CorLoss.ceps))
          * (CorLoss.rowOf y r k - (CorLoss.mean (CorLoss.rowOf y r) + CorLoss.ceps)) := by
  unfold k0_pay7
  refine (rowSum_apply _ _ _ _ _ r z).trans ?_
  refine Finset.sum_congr rfl fun k _ => ?_
  simp only [mulf_apply, subf_apply, addf_apply, spread_apply, splat_apply, pay3_apply, pay4_apply]

/-! ## The loss column -/

/-- Row r of the body's last column, fed the deviation and cross-product columns, is the loss of the two rows. -/
private theorem pay8_apply (x y : FVec Ideal S2048x128 .f32) (r : Fin 2048) (z : Fin 1) :
    k0_pay8 (F := Ideal) x y (k0_pay5 x) (k0_pay6 y) (k0_pay7 x y) (Scalar.ofBits .f32 0x42FE0000#32) (ix2 r z)
      = CorLoss.rowLoss (CorLoss.rowOf x r) (CorLoss.rowOf y r) := by
  unfold k0_pay8
  -- the pointwise operations at (r, z); the deviation and cross-product columns are the rows' statistics
  simp only [addf_apply, mulf_apply, subf_apply, divf_apply, absf_apply, log_apply, exp_apply, splat_apply,
    spread_apply, pay5_apply, pay6_apply, pay7_apply]
  -- the sum over the lanes of the absolute difference of the two softmaxes
  rw [rowSum_apply]
  simp only [absf_apply, subf_apply, divf_apply, exp_apply, spread_apply]
  -- each softmax: the row's maximum, and the sum of the shifted exponentials
  rw [rowMax_apply, rowMax_apply, rowSum_apply, rowSum_apply]
  simp only [exp_apply, subf_apply, spread_apply]
  rw [rowMax_apply, rowMax_apply]
  -- the zero word of 0 - log
  rw [Ideal.ofBits_zero_f32]
  rfl

/-! ## The accumulator -/

/-- The index a reduction over the rows of a column reads: row k of the column. -/
private theorem lift_col (h : S2048x1.Reduces [0] S1) (u : Fin 1) (k : Fin 2048) :
    h.lift (ix1 u) k = ix2 k u := by
  funext a
  match a with
  | ⟨0, _⟩ => exact Fin.ext rfl
  | ⟨1, _⟩ => exact Fin.ext rfl

/-- Row r of the loss column is the loss of rows r of the two blocks. -/
theorem lossCol_apply (x0 x1 : Vec Ideal S2048x128 .f32) (r : Fin 2048) (z : Fin 1) :
    lossCol x0 x1 (ix2 r z) = CorLoss.rowLoss (CorLoss.rowOf x0 r) (CorLoss.rowOf x1 r) := by
  unfold lossCol
  exact pay8_apply x0 x1 r z

/-- The accumulator's update: what it held plus the sum of the column. -/
theorem pay1_apply (v86 : FVec Ideal S2048x1 .f32) (v89 : Vec Ideal S1x1 .f32) (j : S1x1.Idx) :
    k0_pay1 v86 v89 j = v89 j + ∑ r : Fin 2048, v86 (ix2 r (0 : Fin 1)) := by
  unfold k0_pay1
  rw [shapeCast_self]
  refine congrArg (v89 j + ·) ?_
  refine (shapeCast_apply _ _ j (ix1 (0 : Fin 1)) ?_).trans ?_
  · have h0 : (j 0).val = 0 := by have := idx2_lt0 j; omega
    have h1 : (j 1).val = 0 := by have := idx2_lt1 j; omega
    rw [Shape.rowMajor_val_one, Shape.rowMajor_val_two]
    show (0 : Nat) = (j 0).val * 1 + (j 1).val
    rw [h0, h1]
  · refine (Ideal.multiReduction_add_single v86 0x00000000#32 _ _ _ (ix1 (0 : Fin 1))).trans ?_
    exact Finset.sum_congr rfl fun k _ => congrArg v86 (lift_col _ 0 k)

/-- The reset stores zero. -/
theorem pay2_apply (j : S1x1.Idx) : k0_pay2 (F := Ideal) j = 0 := by
  unfold k0_pay2
  rw [shapeCast_self]
  exact Ideal.ofBits_zero_f32

end Cert.KernelIdeal.TileValue

end
-- ==== Proof.KTotal.lean ====
/-
  The kernel's result at the ideal instance. One update adds a tile's sum of per-row losses to what the accumulator
  held, so after point n the accumulator is the sum of the first n + 1 tile sums; input block t is rows
  2048 t … 2048 t + 2047 of its array; and the 64 tile sums together are the sum over all rows.
-/
import proofs.«168679_j28741921145431_1_alg».proof.Proof.KRun
import proofs.«168679_j28741921145431_1_alg».proof.Proof.KTile
import proofs.«168679_j28741921145431_1_alg».proof.Proof.Spec

noncomputable section
open Idealize.ShloMosaic Idealize.ShloMosaic.TcCoe Idealize.SL.Sem Idealize.ShloMosaic.ValueIdx
open Idealize.ShloMosaic.Pipeline (Dat)

namespace Cert.KernelIdeal.TotalValue
open Cert.KernelIdeal Cert.KernelIdeal.Gen Cert.KernelIdeal.TileValue Cert.KernelIdeal.RunValue CorLoss

variable (m : (ℓ : Loc nD τ sig) → Buf (Elt Ideal) ℓ) (ρ : Dev nD → PrngReg)

/-- Both input windows' index maps send point t to block (t, 0). -/
theorem idx_in : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- A grid point as a tile number. -/
def tix (t : Fin cfg0.N) : Fin 64 := ⟨t.val, lt_of_lt_of_eq t.isLt hN⟩

/-- Input block t of the first argument is tile t of it: entry (j₀, j₁) of the block is entry (2048 t + j₀, j₁). -/
theorem xblk_eq (c : Dev nD) (t : Fin cfg0.N) :
    xblk m c t = tileOf (m ((c.tc : Thread nD τ).loc main_arg0)) (tix t) := by
  funext j
  show iblk m c 0 t j = _
  unfold iblk
  rw [View.read_apply]
  show V m c main_arg0 _ = m ((c.tc : Thread nD τ).loc main_arg0) _
  rw [V_main_arg0]
  congr 1
  funext a
  apply Fin.ext
  match a with
  | ⟨0, _⟩ =>
    show win0_0.index t 0 * 2048 + 1 * (j 0).val = 2048 * t.val + (j 0).val
    rw [(idx_in t).1.1]; omega
  | ⟨1, _⟩ =>
    show win0_0.index t 1 * 128 + 1 * (j 1).val = (j 1).val
    rw [(idx_in t).1.2]; omega

/-- The same for the second argument. -/
theorem yblk_eq (c : Dev nD) (t : Fin cfg0.N) :
    yblk m c t = tileOf (m ((c.tc : Thread nD τ).loc main_arg1)) (tix t) := by
  funext j
  show iblk m c 1 t j = _
  unfold iblk
  rw [View.read_apply]
  show V m c main_arg1 _ = m ((c.tc : Thread nD τ).loc main_arg1) _
  rw [V_main_arg1]
  congr 1
  funext a
  apply Fin.ext
  match a with
  | ⟨0, _⟩ =>
    show win0_1.index t 0 * 2048 + 1 * (j 0).val = 2048 * t.val + (j 0).val
    rw [(idx_in t).2.1]; omega
  | ⟨1, _⟩ =>
    show win0_1.index t 1 * 128 + 1 * (j 1).val = (j 1).val
    rw [(idx_in t).2.2]; omega

/-- One update: what the accumulator held plus the tile's sum of per-row losses. -/
theorem step (x y : Vec Ideal S2048x128 .f32) (prev : Vec Ideal S1x1 .f32) (j : S1x1.Idx) :
    k0_pay1 (lossCol x y) prev j = prev j + tileSum x y := by
  rw [pay1_apply]
  unfold tileSum
  exact congrArg (prev j + ·) (Finset.sum_congr rfl fun r _ => lossCol_apply x y r 0)

/-- The tile sum at point s (zero past the grid, where it is never used). -/
def T (c : Dev nD) (s : ℕ) : EReal :=
  if hs : s < cfg0.N then tileSum (xblk m c ⟨s, hs⟩) (yblk m c ⟨s, hs⟩) else 0

/-- After point n the accumulator is the sum of the tile sums of points 0 … n. -/
theorem acc_apply (c : Dev nD) : ∀ (n : ℕ) (h : n < cfg0.N) (j : S1x1.Idx),
    acc m c n h j = ∑ s ∈ Finset.range (n + 1), T m c s
  | 0, h, j => by
    show k0_pay1 (lossCol (xblk m c ⟨0, h⟩) (yblk m c ⟨0, h⟩)) (k0_pay2 (F := Ideal)) j = _
    rw [step, pay2_apply, zero_add, Finset.sum_range_one]
    unfold T
    rw [dif_pos h]
  | n + 1, h, j => by
    show k0_pay1 (lossCol (xblk m c ⟨n + 1, h⟩) (yblk m c ⟨n + 1, h⟩)) (acc m c n (Nat.lt_of_succ_lt h)) j = _
    rw [step, acc_apply c n, Finset.sum_range_succ _ (n + 1)]
    congr 1
    unfold T
    rw [dif_pos h]

/-- The kernel's result vector holds, at its one index, the loss summed over all rows. -/
theorem result_total (c : Dev nD) (j : S1.Idx) :
    shapeCast S1 (result m c) shapeCasts_S1x1_S1 j
      = total (m ((c.tc : Thread nD τ).loc main_arg0)) (m ((c.tc : Thread nD τ).loc main_arg1)) := by
  unfold shapeCast
  show acc m c 63 tLast.isLt _ = _
  rw [acc_apply, ← tiles_eq_total, Finset.sum_range]
  refine Finset.sum_congr rfl fun t _ => ?_
  unfold T
  rw [dif_pos (lt_of_lt_of_eq t.isLt hN.symm), xblk_eq, yblk_eq]
  rfl

/-- The kernel's run at the ideal instance: the result is the total loss, the arguments are unchanged. -/
theorem run : θ_run defs (onTc (τ := τ) (main (F := Ideal))) ⟨m, fun _ => 0, ρ⟩ fun r => ∀ c : Dev nD,
      r.2.mem ((c.tc : Thread nD τ).loc main_v1)
        = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun j => result_total m c j), (h c).2⟩)
    (RunValue.run m ρ)

end Cert.KernelIdeal.TotalValue

end
-- ==== Proof.RefTerm.lean ====
/-
  The reference's result as one term of its two argument arrays, built in stages that follow the mathematics:
  row sums, the mean as a column, the sample standard deviation (the divisor 128 - ddof computed from the integer
  ddof, the quotient kept where that divisor is positive), the covariance about the shifted means, the cubed
  correlation, the logarithmic term, the softmax of each row, the mean absolute difference of the two softmaxes,
  the per-row loss and its sum over all rows. Each stage is the host operations the program applies, in the
  program's own spelling, so that the program's run ends at `out` by unfolding and a value proof can read one
  stage at a time.
-/
import proofs.«168679_j28741921145431_1_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- A float word as a [131072, 1] column, as a [131072] vector. -/
def splatCol (b : BitVec 32) : FVec F S131072x1 .f32 := broadcastInDim S131072x1 ![] bcast_S_S131072x1 (constant S_ .f32 b)
def splatVec (b : BitVec 32) : FVec F S131072 .f32 := broadcastInDim S131072 ![] bcast_S_S131072 (constant S_ .f32 b)

/-- The sum of each row, from zero. -/
def rowSum (X : FVec F S131072x128 .f32) : FVec F S131072 .f32 :=
  Host.reduceAdd X (constant S_ .f32 0x00000000#32) reducesTo_S131072x128_S131072_d1 h_S_

/-- A vector as a column; a column repeated along the lanes. -/
def colOf (v : FVec F S131072 .f32) : FVec F S131072x1 .f32 := broadcastInDim S131072x1 ![0] bcast_S131072_S131072x1_0 v
def wide (v : FVec F S131072x1 .f32) : FVec F S131072x128 .f32 := broadcastInDim S131072x128 ![0, 1] bcast_S131072x1_S131072x128_0_1 v

/-- The mean of each row, as a column; and shifted by eps. -/
def meanCol (X : FVec F S131072x128 .f32) : FVec F S131072x1 .f32 := Host.divf (colOf (rowSum X)) (splatCol 0x43000000#32)
def meanEps (X : FVec F S131072x128 .f32) : FVec F S131072x1 .f32 := addf (meanCol X) (splatCol 0x3A83126F#32)

/-- The deviations from the row means, and their squares summed per row. -/
def dev (X : FVec F S131072x128 .f32) : FVec F S131072x128 .f32 := subf X (wide (meanCol X))
def ssq (X : FVec F S131072x128 .f32) : FVec F S131072 .f32 := rowSum (mulf (dev X) (dev X))

/-- The variance's divisor: 128 minus the integer ddof, as a float scalar. -/
def nrm (d : IVec S_ 32) : FVec F S_ .f32 := subf (constant S_ .f32 0x43000000#32) (sitofp .f32 d)

/-- The variance: the quotient where the divisor is positive, the word 0x7FC00000 elsewhere. -/
def var (X : FVec F S131072x128 .f32) (d : IVec S_ 32) : FVec F S131072 .f32 :=
  select (broadcastInDim S131072 ![] bcast_S_S131072 (cmpf .ogt (nrm (F := F) d) (constant S_ .f32 0x00000000#32)))
    (Host.divf (ssq X) (broadcastInDim S131072 ![] bcast_S_S131072 (nrm (F := F) d)))
    (broadcastInDim S131072 ![] bcast_S_S131072 (id (constant (F := F) S_ .f32 0x7FC00000#32)))

/-- The standard deviation of each row. -/
def std (X : FVec F S131072x128 .f32) (d : IVec S_ 32) : FVec F S131072 .f32 := Host.sqrt (var X d)

/-- The covariance about the shifted means, over 127. -/
def cov (X Y : FVec F S131072x128 .f32) : FVec F S131072 .f32 :=
  Host.divf (rowSum (mulf (subf X (wide (meanEps X))) (subf Y (wide (meanEps Y))))) (splatVec 0x42FE0000#32)

/-- The correlation, and its cube. -/
def cor (X Y : FVec F S131072x128 .f32) (d1 d2 : IVec S_ 32) : FVec F S131072 .f32 :=
  Host.divf (cov X Y) (addf (mulf (std X d1) (std Y d2)) (splatVec 0x3A83126F#32))
def cor3 (X Y : FVec F S131072x128 .f32) (d1 d2 : IVec S_ 32) : FVec F S131072 .f32 :=
  mulf (mulf (cor X Y d1 d2) (cor X Y d1 d2)) (cor X Y d1 d2)

/-- The logarithmic term. -/
def tl1 (X Y : FVec F S131072x128 .f32) (d1 d2 : IVec S_ 32) : FVec F S131072 .f32 :=
  Host.negf (Host.log (Host.divf (addf (addf (cor3 X Y d1 d2) (splatVec 0x3F800000#32)) (splatVec 0x3A83126F#32)) (splatVec 0x40000000#32)))

/-- The maximum of each row: the reduce from minus infinity, joined once more with minus infinity. -/
def rmax (X : FVec F S131072x128 .f32) : FVec F S131072 .f32 :=
  maximumf (splatVec 0xFF800000#32)
    (Host.reduce FloatOps.maximumf X (constant S_ .f32 0xFF800000#32) reducesTo_S131072x128_S131072_d1 h_S_)

/-- The exponentials of a row shifted by its maximum, and the softmax. -/
def ex (X : FVec F S131072x128 .f32) : FVec F S131072x128 .f32 := Host.exp (subf X (wide (colOf (rmax X))))
def sm (X : FVec F S131072x128 .f32) : FVec F S131072x128 .f32 := Host.divf (ex X) (wide (colOf (rowSum (ex X))))

/-- The mean absolute difference of the two softmaxes, per row. -/
def emd (X Y : FVec F S131072x128 .f32) : FVec F S131072 .f32 :=
  Host.divf (rowSum (Host.absf (subf (sm X) (sm Y)))) (splatVec 0x43000000#32)

/-- The loss of each row. -/
def lossVec (X Y : FVec F S131072x128 .f32) (d1 d2 : IVec S_ 32) : FVec F S131072 .f32 :=
  addf (mulf (Host.absf (cor3 X Y d1 d2)) (tl1 X Y d1 d2))
    (mulf (subf (splatVec 0x3F800000#32) (Host.absf (cor3 X Y d1 d2))) (emd X Y))

/-- The integer one both calls of the standard deviation pass as ddof. -/
def ddof : IVec S_ 32 := constantI S_ 32 1#32

/-- The result: the losses summed from zero, as a one-element vector. -/
def out (X Y : FVec F S131072x128 .f32) : FVec F S1 .f32 :=
  shapeCast S1 (Host.reduceAdd (lossVec X Y ddof ddof) (constant S_ .f32 0x00000000#32) reducesTo_S131072_S_d0 h_S_) shapeCasts_S_S1

end Cert.ReferenceIdeal.RefTerm

end
-- ==== Proof.RefRun.lean ====
/-
  The reference program's run: @main is a straight line of host operations once its calls are unfolded at their
  buffers, so every weakly fair execution ends with the result buffer at the operations' composed term of the
  arguments, which is `RefTerm.out`, and the arguments unchanged.
-/
import proofs.«168679_j28741921145431_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded where they stand. Each call of the standard deviation is
    twenty-three: the variance's nineteen (the row sums from zero, the mean as a column and along the lanes, the
    deviations and their squares, the integer ddof as a float, 128 minus it, the squares summed per row, the
    quotient, the comparison of the divisor with zero, the word kept elsewhere), the three of the choice between
    the quotient and that word (the word at its own type, repeated along the rows, the select), and the square
    root. The first call runs over `main_call0`'s buffers on the first argument, the second over `main_call1`'s
    on the second; around them @main's own ninety-three. -/
abbrev ops : List (HloOp τ sig (Elt F)) :=
  [ nullary main_cst (constant S_ .f32 0x00000000#32),
    binary main_arg0 main_cst main_v0 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v0 main_v1 (broadcastInDim S131072x1 ![0] bcast_S131072_S131072x1_0 : (⟨S131072, .f32⟩ : BufTy).Contents (Elt F) → (⟨S131072x1, .f32⟩ : BufTy).Contents (Elt F)),
    nullary main_cst_0 (constant S_ .f32 0x43000000#32),
    unary main_cst_0 main_v2 (broadcastInDim S131072x1 ![] bcast_S_S131072x1 : (⟨S_, .f32⟩ : BufTy).Contents (Elt F) → (⟨S131072x1, .f32⟩ : BufTy).Contents (Elt F)),
    binary main_v1 main_v2 main_v3 (Host.divf : (⟨S131072x1, .f32⟩ : BufTy).Contents (Elt F) → (⟨S131072x1, .f32⟩ : BufTy).Contents (Elt F) → (⟨S131072x1, .f32⟩ : BufTy).Contents (Elt F)),
    nullary main_cst_1 (constant S_ .f32 0x3A83126F#32),
    unary main_cst_1 main_v4 (broadcastInDim S131072x1 ![] bcast_S_S131072x1 : (⟨S_, .f32⟩ : BufTy).Contents (Elt F) → (⟨S131072x1, .f32⟩ : BufTy).Contents (Elt F)),
    binary main_v3 main_v4 main_v5 (addf : (⟨S131072x1, .f32⟩ : BufTy).Contents (Elt F) → (⟨S131072x1, .f32⟩ : BufTy).Contents (Elt F) → (⟨S131072x1, .f32⟩ : BufTy).Contents (Elt F)),
    nullary main_cst_2 (constant S_ .f32 0x00000000#32),
    binary main_arg1 main_cst_2 main_v6 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v6 main_v7 (broadcastInDim S131072x1 ![0] bcast_S131072_S131072x1_0 : (⟨S131072, .f32⟩ : BufTy).Contents (Elt F) → (⟨S131072x1, .f32⟩ : BufTy).Contents (Elt F)),
    nullary main_cst_3 (constant S_ .f32 0x43000000#32),
    unary main_cst_3 main_v8 (broadcastInDim S131072x1 ![] bcast_S_S131072x1 : (⟨S_, .f32⟩ : BufTy).Contents (Elt F) → (⟨S131072x1, .f32⟩ : BufTy).Contents (Elt F)),
    binary main_v7 main_v8 main_v9 (Host.divf : (⟨S131072x1, .f32⟩ : BufTy).Contents (Elt F) → (⟨S131072x1, .f32⟩ : BufTy).Contents (Elt F) → (⟨S131072x1, .f32⟩ : BufTy).Contents (Elt F)),
    nullary main_cst_4 (constant S_ .f32 0x3A83126F#32),
    unary main_cst_4 main_v10 (broadcastInDim S131072x1 ![] bcast_S_S131072x1 : (⟨S_, .f32⟩ : BufTy).Contents (Elt F) → (⟨S131072x1, .f32⟩ : BufTy).Contents (Elt F)),
    binary main_v9 main_v10 main_v11 (addf : (⟨S131072x1, .f32⟩ : BufTy).Contents (Elt F) → (⟨S131072x1, .f32⟩ : BufTy).Contents (Elt F) → (⟨S131072x1, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S131072x128_S131072_d1 h_S_),
    TRef.unary main_call0.call0.v0 main_call0.call0.v1 (broadcastInDim S131072x1 ![0] bcast_S131072_S131072x1_0),
    TRef.nullary main_call0.call0.cst_0 (constant S_ .f32 0x43000000#32),
    TRef.unary main_call0.call0.cst_0 main_call0.call0.v2 (broadcastInDim S131072x1 ![] bcast_S_S131072x1),
    TRef.binary main_call0.call0.v1 main_call0.call0.v2 main_call0.call0.v3 Host.divf,
    TRef.unary main_call0.call0.v3 main_call0.call0.v4 (broadcastInDim S131072x128 ![0, 1] bcast_S131072x1_S131072x128_0_1),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x43000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S131072x128_S131072_d1 h_S_),
    TRef.unary main_call0.call0.v8 main_call0.call0.v10 (broadcastInDim S131072 ![] bcast_S_S131072),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S131072 ![] bcast_S_S131072),
    TRef.ternary main_call0.call0.v12 main_call0.call0.v11 main_call0.call0.call0.v1 main_call0.call0.call0.v2 (fun p a b => select (broadcastInDim S131072 ![] bcast_S_S131072 p) a b),
    TRef.unary main_call0.call0.call0.v2 main_call0.v1 Host.sqrt,
    nullary main_c_5 (constantI S_ 32 1#32),
    TRef.nullary main_call1.call0.cst (constant S_ .f32 0x00000000#32),
    TRef.binary (.of main_arg1) main_call1.call0.cst main_call1.call0.v0 (fun x v => Host.reduceAdd x v reducesTo_S131072x128_S131072_d1 h_S_),
    TRef.unary main_call1.call0.v0 main_call1.call0.v1 (broadcastInDim S131072x1 ![0] bcast_S131072_S131072x1_0),
    TRef.nullary main_call1.call0.cst_0 (constant S_ .f32 0x43000000#32),
    TRef.unary main_call1.call0.cst_0 main_call1.call0.v2 (broadcastInDim S131072x1 ![] bcast_S_S131072x1),
    TRef.binary main_call1.call0.v1 main_call1.call0.v2 main_call1.call0.v3 Host.divf,
    TRef.unary main_call1.call0.v3 main_call1.call0.v4 (broadcastInDim S131072x128 ![0, 1] bcast_S131072x1_S131072x128_0_1),
    TRef.binary (.of main_arg1) main_call1.call0.v4 main_call1.call0.v5 subf,
    TRef.binary main_call1.call0.v5 main_call1.call0.v5 main_call1.call0.v6 mulf,
    TRef.unary (.of main_c_5) main_call1.call0.v7 (sitofp .f32),
    TRef.nullary main_call1.call0.cst_1 (constant S_ .f32 0x43000000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S131072x128_S131072_d1 h_S_),
    TRef.unary main_call1.call0.v8 main_call1.call0.v10 (broadcastInDim S131072 ![] bcast_S_S131072),
    TRef.binary main_call1.call0.v9 main_call1.call0.v10 main_call1.call0.v11 Host.divf,
    TRef.nullary main_call1.call0.cst_3 (constant S_ .f32 0x00000000#32),
    TRef.binary main_call1.call0.v8 main_call1.call0.cst_3 main_call1.call0.v12 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S131072 ![] bcast_S_S131072),
    TRef.ternary main_call1.call0.v12 main_call1.call0.v11 main_call1.call0.call0.v1 main_call1.call0.call0.v2 (fun p a b => select (broadcastInDim S131072 ![] bcast_S_S131072 p) a b),
    TRef.unary main_call1.call0.call0.v2 main_call1.v1 Host.sqrt,
    unary main_v5 main_v14 (broadcastInDim S131072x128 ![0, 1] bcast_S131072x1_S131072x128_0_1 : (⟨S131072x1, .f32⟩ : BufTy).Contents (Elt F) → (⟨S131072x128, .f32⟩ : BufTy).Contents (Elt F)),
    binary main_arg0 main_v14 main_v15 (subf : (⟨S131072x128, .f32⟩ : BufTy).Contents (Elt F) → (⟨S131072x128, .f32⟩ : BufTy).Contents (Elt F) → (⟨S131072x128, .f32⟩ : BufTy).Contents (Elt F)),
    unary main_v11 main_v16 (broadcastInDim S131072x128 ![0, 1] bcast_S131072x1_S131072x128_0_1 : (⟨S131072x1, .f32⟩ : BufTy).Contents (Elt F) → (⟨S131072x128, .f32⟩ : BufTy).Contents (Elt F)),
    binary main_arg1 main_v16 main_v17 (subf : (⟨S131072x128, .f32⟩ : BufTy).Contents (Elt F) → (⟨S131072x128, .f32⟩ : BufTy).Contents (Elt F) → (⟨S131072x128, .f32⟩ : BufTy).Contents (Elt F)),
    binary main_v15 main_v17 main_v18 (mulf : (⟨S131072x128, .f32⟩ : BufTy).Contents (Elt F) → (⟨S131072x128, .f32⟩ : BufTy).Contents (Elt F) → (⟨S131072x128, .f32⟩ : BufTy).Contents (Elt F)),
    nullary main_cst_6 (constant S_ .f32 0x00000000#32),
    binary main_v18 main_cst_6 main_v19 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    nullary main_cst_7 (constant S_ .f32 0x42FE0000#32),
    unary main_cst_7 main_v20 (broadcastInDim S131072 ![] bcast_S_S131072 : (⟨S_, .f32⟩ : BufTy).Contents (Elt F) → (⟨S131072, .f32⟩ : BufTy).Contents (Elt F)),
    binary main_v19 main_v20 main_v21 (Host.divf : (⟨S131072, .f32⟩ : BufTy).Contents (Elt F) → (⟨S131072, .f32⟩ : BufTy).Contents (Elt F) → (⟨S131072, .f32⟩ : BufTy).Contents (Elt F)),
    binary main_v12 main_v13 main_v22 (mulf : (⟨S131072, .f32⟩ : BufTy).Contents (Elt F) → (⟨S131072, .f32⟩ : BufTy).Contents (Elt F) → (⟨S131072, .f32⟩ : BufTy).Contents (Elt F)),
    nullary main_cst_8 (constant S_ .f32 0x3A83126F#32),
    unary main_cst_8 main_v23 (broadcastInDim S131072 ![] bcast_S_S131072 : (⟨S_, .f32⟩ : BufTy).Contents (Elt F) → (⟨S131072, .f32⟩ : BufTy).Contents (Elt F)),
    binary main_v22 main_v23 main_v24 (addf : (⟨S131072, .f32⟩ : BufTy).Contents (Elt F) → (⟨S131072, .f32⟩ : BufTy).Contents (Elt F) → (⟨S131072, .f32⟩ : BufTy).Contents (Elt F)),
    binary main_v21 main_v24 main_v25 (Host.divf : (⟨S131072, .f32⟩ : BufTy).Contents (Elt F) → (⟨S131072, .f32⟩ : BufTy).Contents (Elt F) → (⟨S131072, .f32⟩ : BufTy).Contents (Elt F)),
    binary main_v25 main_v25 main_v26 (mulf : (⟨S131072, .f32⟩ : BufTy).Contents (Elt F) → (⟨S131072, .f32⟩ : BufTy).Contents (Elt F) → (⟨S131072, .f32⟩ : BufTy).Contents (Elt F)),
    binary main_v26 main_v25 main_v27 (mulf : (⟨S131072, .f32⟩ : BufTy).Contents (Elt F) → (⟨S131072, .f32⟩ : BufTy).Contents (Elt F) → (⟨S131072, .f32⟩ : BufTy).Contents (Elt F)),
    nullary main_cst_9 (constant S_ .f32 0x3F800000#32),
    unary main_cst_9 main_v28 (broadcastInDim S131072 ![] bcast_S_S131072 : (⟨S_, .f32⟩ : BufTy).Contents (Elt F) → (⟨S131072, .f32⟩ : BufTy).Contents (Elt F)),
    binary main_v27 main_v28 main_v29 (addf : (⟨S131072, .f32⟩ : BufTy).Contents (Elt F) → (⟨S131072, .f32⟩ : BufTy).Contents (Elt F) → (⟨S131072, .f32⟩ : BufTy).Contents (Elt F)),
    nullary main_cst_10 (constant S_ .f32 0x3A83126F#32),
    unary main_cst_10 main_v30 (broadcastInDim S131072 ![] bcast_S_S131072 : (⟨S_, .f32⟩ : BufTy).Contents (Elt F) → (⟨S131072, .f32⟩ : BufTy).Contents (Elt F)),
    binary main_v29 main_v30 main_v31 (addf : (⟨S131072, .f32⟩ : BufTy).Contents (Elt F) → (⟨S131072, .f32⟩ : BufTy).Contents (Elt F) → (⟨S131072, .f32⟩ : BufTy).Contents (Elt F)),
    nullary main_cst_11 (constant S_ .f32 0x40000000#32),
    unary main_cst_11 main_v32 (broadcastInDim S131072 ![] bcast_S_S131072 : (⟨S_, .f32⟩ : BufTy).Contents (Elt F) → (⟨S131072, .f32⟩ : BufTy).Contents (Elt F)),
    binary main_v31 main_v32 main_v33 (Host.divf : (⟨S131072, .f32⟩ : BufTy).Contents (Elt F) → (⟨S131072, .f32⟩ : BufTy).Contents (Elt F) → (⟨S131072, .f32⟩ : BufTy).Contents (Elt F)),
    unary main_v33 main_v34 (Host.log : (⟨S131072, .f32⟩ : BufTy).Contents (Elt F) → (⟨S131072, .f32⟩ : BufTy).Contents (Elt F)),
    unary main_v34 main_v35 (Host.negf : (⟨S131072, .f32⟩ : BufTy).Contents (Elt F) → (⟨S131072, .f32⟩ : BufTy).Contents (Elt F)),
    nullary main_cst_12 (constant S_ .f32 0xFF800000#32),
    binary main_arg0 main_cst_12 main_v36 ((fun x v => Host.reduce FloatOps.maximumf x v reducesTo_S131072x128_S131072_d1 h_S_) : (⟨S131072x128, .f32⟩ : BufTy).Contents (Elt F) → (⟨S_, .f32⟩ : BufTy).Contents (Elt F) → (⟨S131072, .f32⟩ : BufTy).Contents (Elt F)),
    nullary main_cst_13 (constant S_ .f32 0xFF800000#32),
    unary main_cst_13 main_v37 (broadcastInDim S131072 ![] bcast_S_S131072 : (⟨S_, .f32⟩ : BufTy).Contents (Elt F) → (⟨S131072, .f32⟩ : BufTy).Contents (Elt F)),
    binary main_v37 main_v36 main_v38 (maximumf : (⟨S131072, .f32⟩ : BufTy).Contents (Elt F) → (⟨S131072, .f32⟩ : BufTy).Contents (Elt F) → (⟨S131072, .f32⟩ : BufTy).Contents (Elt F)),
    unary main_v38 main_v39 (broadcastInDim S131072x1 ![0] bcast_S131072_S131072x1_0 : (⟨S131072, .f32⟩ : BufTy).Contents (Elt F) → (⟨S131072x1, .f32⟩ : BufTy).Contents (Elt F)),
    unary main_v39 main_v40 (broadcastInDim S131072x128 ![0, 1] bcast_S131072x1_S131072x128_0_1 : (⟨S131072x1, .f32⟩ : BufTy).Contents (Elt F) → (⟨S131072x128, .f32⟩ : BufTy).Contents (Elt F)),
    binary main_arg0 main_v40 main_v41 (subf : (⟨S131072x128, .f32⟩ : BufTy).Contents (Elt F) → (⟨S131072x128, .f32⟩ : BufTy).Contents (Elt F) → (⟨S131072x128, .f32⟩ : BufTy).Contents (Elt F)),
    unary main_v41 main_v42 (Host.exp : (⟨S131072x128, .f32⟩ : BufTy).Contents (Elt F) → (⟨S131072x128, .f32⟩ : BufTy).Contents (Elt F)),
    nullary main_cst_14 (constant S_ .f32 0x00000000#32),
    binary main_v42 main_cst_14 main_v43 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v43 main_v44 (broadcastInDim S131072x1 ![0] bcast_S131072_S131072x1_0 : (⟨S131072, .f32⟩ : BufTy).Contents (Elt F) → (⟨S131072x1, .f32⟩ : BufTy).Contents (Elt F)),
    unary main_v44 main_v45 (broadcastInDim S131072x128 ![0, 1] bcast_S131072x1_S131072x128_0_1 : (⟨S131072x1, .f32⟩ : BufTy).Contents (Elt F) → (⟨S131072x128, .f32⟩ : BufTy).Contents (Elt F)),
    binary main_v42 main_v45 main_v46 (Host.divf : (⟨S131072x128, .f32⟩ : BufTy).Contents (Elt F) → (⟨S131072x128, .f32⟩ : BufTy).Contents (Elt F) → (⟨S131072x128, .f32⟩ : BufTy).Contents (Elt F)),
    nullary main_cst_15 (constant S_ .f32 0xFF800000#32),
    binary main_arg1 main_cst_15 main_v47 ((fun x v => Host.reduce FloatOps.maximumf x v reducesTo_S131072x128_S131072_d1 h_S_) : (⟨S131072x128, .f32⟩ : BufTy).Contents (Elt F) → (⟨S_, .f32⟩ : BufTy).Contents (Elt F) → (⟨S131072, .f32⟩ : BufTy).Contents (Elt F)),
    nullary main_cst_16 (constant S_ .f32 0xFF800000#32),
    unary main_cst_16 main_v48 (broadcastInDim S131072 ![] bcast_S_S131072 : (⟨S_, .f32⟩ : BufTy).Contents (Elt F) → (⟨S131072, .f32⟩ : BufTy).Contents (Elt F)),
    binary main_v48 main_v47 main_v49 (maximumf : (⟨S131072, .f32⟩ : BufTy).Contents (Elt F) → (⟨S131072, .f32⟩ : BufTy).Contents (Elt F) → (⟨S131072, .f32⟩ : BufTy).Contents (Elt F)),
    unary main_v49 main_v50 (broadcastInDim S131072x1 ![0] bcast_S131072_S131072x1_0 : (⟨S131072, .f32⟩ : BufTy).Contents (Elt F) → (⟨S131072x1, .f32⟩ : BufTy).Contents (Elt F)),
    unary main_v50 main_v51 (broadcastInDim S131072x128 ![0, 1] bcast_S131072x1_S131072x128_0_1 : (⟨S131072x1, .f32⟩ : BufTy).Contents (Elt F) → (⟨S131072x128, .f32⟩ : BufTy).Contents (Elt F)),
    binary main_arg1 main_v51 main_v52 (subf : (⟨S131072x128, .f32⟩ : BufTy).Contents (Elt F) → (⟨S131072x128, .f32⟩ : BufTy).Contents (Elt F) → (⟨S131072x128, .f32⟩ : BufTy).Contents (Elt F)),
    unary main_v52 main_v53 (Host.exp : (⟨S131072x128, .f32⟩ : BufTy).Contents (Elt F) → (⟨S131072x128, .f32⟩ : BufTy).Contents (Elt F)),
    nullary main_cst_17 (constant S_ .f32 0x00000000#32),
    binary main_v53 main_cst_17 main_v54 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v54 main_v55 (broadcastInDim S131072x1 ![0] bcast_S131072_S131072x1_0 : (⟨S131072, .f32⟩ : BufTy).Contents (Elt F) → (⟨S131072x1, .f32⟩ : BufTy).Contents (Elt F)),
    unary main_v55 main_v56 (broadcastInDim S131072x128 ![0, 1] bcast_S131072x1_S131072x128_0_1 : (⟨S131072x1, .f32⟩ : BufTy).Contents (Elt F) → (⟨S131072x128, .f32⟩ : BufTy).Contents (Elt F)),
    binary main_v53 main_v56 main_v57 (Host.divf : (⟨S131072x128, .f32⟩ : BufTy).Contents (Elt F) → (⟨S131072x128, .f32⟩ : BufTy).Contents (Elt F) → (⟨S131072x128, .f32⟩ : BufTy).Contents (Elt F)),
    binary main_v46 main_v57 main_v58 (subf : (⟨S131072x128, .f32⟩ : BufTy).Contents (Elt F) → (⟨S131072x128, .f32⟩ : BufTy).Contents (Elt F) → (⟨S131072x128, .f32⟩ : BufTy).Contents (Elt F)),
    unary main_v58 main_v59 (Host.absf : (⟨S131072x128, .f32⟩ : BufTy).Contents (Elt F) → (⟨S131072x128, .f32⟩ : BufTy).Contents (Elt F)),
    nullary main_cst_18 (constant S_ .f32 0x00000000#32),
    binary main_v59 main_cst_18 main_v60 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    nullary main_cst_19 (constant S_ .f32 0x43000000#32),
    unary main_cst_19 main_v61 (broadcastInDim S131072 ![] bcast_S_S131072 : (⟨S_, .f32⟩ : BufTy).Contents (Elt F) → (⟨S131072, .f32⟩ : BufTy).Contents (Elt F)),
    binary main_v60 main_v61 main_v62 (Host.divf : (⟨S131072, .f32⟩ : BufTy).Contents (Elt F) → (⟨S131072, .f32⟩ : BufTy).Contents (Elt F) → (⟨S131072, .f32⟩ : BufTy).Contents (Elt F)),
    unary main_v27 main_v63 (Host.absf : (⟨S131072, .f32⟩ : BufTy).Contents (Elt F) → (⟨S131072, .f32⟩ : BufTy).Contents (Elt F)),
    binary main_v63 main_v35 main_v64 (mulf : (⟨S131072, .f32⟩ : BufTy).Contents (Elt F) → (⟨S131072, .f32⟩ : BufTy).Contents (Elt F) → (⟨S131072, .f32⟩ : BufTy).Contents (Elt F)),
    nullary main_cst_20 (constant S_ .f32 0x3F800000#32),
    unary main_cst_20 main_v65 (broadcastInDim S131072 ![] bcast_S_S131072 : (⟨S_, .f32⟩ : BufTy).Contents (Elt F) → (⟨S131072, .f32⟩ : BufTy).Contents (Elt F)),
    binary main_v65 main_v63 main_v66 (subf : (⟨S131072, .f32⟩ : BufTy).Contents (Elt F) → (⟨S131072, .f32⟩ : BufTy).Contents (Elt F) → (⟨S131072, .f32⟩ : BufTy).Contents (Elt F)),
    binary main_v66 main_v62 main_v67 (mulf : (⟨S131072, .f32⟩ : BufTy).Contents (Elt F) → (⟨S131072, .f32⟩ : BufTy).Contents (Elt F) → (⟨S131072, .f32⟩ : BufTy).Contents (Elt F)),
    binary main_v64 main_v67 main_v68 (addf : (⟨S131072, .f32⟩ : BufTy).Contents (Elt F) → (⟨S131072, .f32⟩ : BufTy).Contents (Elt F) → (⟨S131072, .f32⟩ : BufTy).Contents (Elt F)),
    nullary main_cst_21 (constant S_ .f32 0x00000000#32),
    binary main_v68 main_cst_21 main_v69 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    reshape main_v69 main_v70 rfl shapeCasts_S_S1 ]

-- one hundred and thirty-nine binds re-associated: the rewrite under the chain recurses once per statement
set_option maxRecDepth 4096 in
/-- @main is that straight line: its two windows, the functions' definitions unfolded at their calls and the
    records at their fields, are one chain of `hlo` steps once sequencing is reassociated. -/
theorem main_eq (c : Dev nD) : main (F := F) c = seq ops := by
  simp only [main, main_part0, main_part1, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig := by
  simp only [ops, List.Forall, nullary_bufs_sub, unary_bufs_sub, binary_bufs_sub, ternary_bufs_sub, reshape_bufs_sub,
    and_self]

set_option maxHeartbeats 8000000 in
/-- The fold of the operations at the result buffer is `RefTerm.out` of the two arguments: each operation's result
    read at its own buffer is its function of its operands' contents and at any other buffer what was there, so
    the fold is the operations' composed term; the typed references' transports are the identity at these literal
    buffers, and the composed term is `RefTerm.out`'s stages unfolded, the shape facts agreeing as proofs of one
    proposition. -/
theorem out_eq (V : Valuation τ sig (Elt F)) :
    after ops V (main_v70 : DevRef τ sig)
      = RefTerm.out (V (main_arg0 : DevRef τ sig)) (V (main_arg1 : DevRef τ sig)) := by
  after_results_simp
  simp only [TRef.ofBuf, TRef.toBuf, cast_eq]
  rfl

set_option maxHeartbeats 8000000 in
/-- No operation writes the first argument's buffer. -/
theorem arg0_eq (V : Valuation τ sig (Elt F)) :
    after ops V (main_arg0 : DevRef τ sig) = V (main_arg0 : DevRef τ sig) := by
  after_results_simp

set_option maxHeartbeats 8000000 in
/-- No operation writes the second argument's buffer. -/
theorem arg1_eq (V : Valuation τ sig (Elt F)) :
    after ops V (main_arg1 : DevRef τ sig) = V (main_arg1 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
        = RefTerm.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c main_v70).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's term read at its one index: every stage is a function of one row of each argument, and the last
  stage sums the per-row losses over all rows; so the result is the specification's `total`.
-/
import proofs.«168679_j28741921145431_1_alg».proof.Proof.RefTerm
import proofs.«168679_j28741921145431_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefTerm Idealize.ShloMosaic Idealize.ShloMosaic.ValueIdx

/-- A splat vector reads its word everywhere. -/
theorem splatVec_apply (b : BitVec 32) (j : S131072.Idx) : splatVec (F := Ideal) b j = Ideal.ofBits .f32 b := rfl
theorem splatCol_apply (b : BitVec 32) (j : S131072x1.Idx) : splatCol (F := Ideal) b j = Ideal.ofBits .f32 b := rfl

/-- The row index with lane k inserted. -/
theorem lift_row (h : S131072x128.Reduces [1] S131072) (r : Fin 131072) (k : Fin 128) :
    h.lift (ix1 r) k = ix2 r k := by
  funext a
  match a with
  | ⟨0, _⟩ => rfl
  | ⟨1, _⟩ => rfl

theorem rowSum_apply (X : FVec Ideal S131072x128 .f32) (r : Fin 131072) :
    rowSum X (ix1 r) = ∑ k : Fin 128, X (ix2 r k) := by
  have h : S131072x128.Reduces [1] S131072 := by decide
  unfold rowSum
  refine (Ideal.hostReduceAdd_single reducesTo_S131072x128_S131072_d1 h X _ (ix1 r)).trans ?_
  rw [constant_apply, Ideal.ofBits_zero_f32, zero_add]
  exact Finset.sum_congr rfl fun k _ => congrArg X (lift_row h r k)

/-- A vector as a column reads the vector at the row. -/
theorem colOf_apply (v : FVec Ideal S131072 .f32) (r : Fin 131072) (z : Fin 1) : colOf v (ix2 r z) = v (ix1 r) := by
  unfold colOf
  refine broadcastInDim_apply _ _ v (ix2 r z) (ix1 r) fun a => ?_
  match a with
  | ⟨0, _⟩ => rfl

/-- A column repeated along the lanes reads the column at the row. -/
theorem wide_apply (c : FVec Ideal S131072x1 .f32) (r : Fin 131072) (k : Fin 128) : wide c (ix2 r k) = c (ix2 r (0 : Fin 1)) := by
  unfold wide
  refine broadcastInDim_apply _ _ c (ix2 r k) (ix2 r (0 : Fin 1)) fun a => ?_
  match a with
  | ⟨0, _⟩ => rfl
  | ⟨1, _⟩ => rfl

theorem hostDivf_at {s : Shape} (a b : FVec Ideal s .f32) (i : s.Idx) : Host.divf a b i = Ideal.div (a i) (b i) := rfl
theorem hostSqrt_at {s : Shape} (a : FVec Ideal s .f32) (i : s.Idx) : Host.sqrt a i = Ideal.sqrt (a i) := rfl
theorem hostExp_at {s : Shape} (a : FVec Ideal s .f32) (i : s.Idx) : Host.exp a i = Ideal.exp (a i) := rfl
theorem hostLog_at {s : Shape} (a : FVec Ideal s .f32) (i : s.Idx) : Host.log a i = Ideal.log (a i) := rfl
theorem hostNegf_at {s : Shape} (a : FVec Ideal s .f32) (i : s.Idx) : Host.negf a i = -(a i) := rfl
theorem hostAbsf_at {s : Shape} (a : FVec Ideal s .f32) (i : s.Idx) : Host.absf a i = max (a i) (-(a i)) := rfl

/-- The mean column at a row is the row's mean. -/
theorem meanCol_apply (X : FVec Ideal S131072x128 .f32) (r : Fin 131072) (z : Fin 1) :
    meanCol X (ix2 r z) = CorLoss.mean (CorLoss.rowOf X r) := by
  unfold meanCol CorLoss.mean
  rw [hostDivf_at, colOf_apply, rowSum_apply, splatCol_apply]

theorem meanEps_apply (X : FVec Ideal S131072x128 .f32) (r : Fin 131072) (z : Fin 1) :
    meanEps X (ix2 r z) = CorLoss.mean (CorLoss.rowOf X r) + CorLoss.ceps := by
  unfold meanEps
  rw [addf_apply, meanCol_apply, splatCol_apply]

/-- The deviation from the row mean. -/
theorem dev_apply (X : FVec Ideal S131072x128 .f32) (r : Fin 131072) (k : Fin 128) :
    dev X (ix2 r k) = X (ix2 r k) - CorLoss.mean (CorLoss.rowOf X r) := by
  unfold dev
  rw [subf_apply, wide_apply, meanCol_apply]

/-- The squared deviations summed over the row. -/
theorem ssq_apply (X : FVec Ideal S131072x128 .f32) (r : Fin 131072) :
    ssq X (ix1 r) = ∑ k : Fin 128, (X (ix2 r k) - CorLoss.mean (CorLoss.rowOf X r)) * (X (ix2 r k) - CorLoss.mean (CorLoss.rowOf X r)) := by
  unfold ssq
  rw [rowSum_apply]
  exact Finset.sum_congr rfl fun k _ => by rw [mulf_apply, dev_apply]

/-- The words 0x43000000 and 0x42FE0000 are the reals 128 and 127. -/
theorem c128_eq : CorLoss.c128 = ((128 : ℝ) : EReal) := by
  simp [Ideal.ofBits, Ideal.ieee, -EReal.coe_mul]; norm_num
theorem c127_eq : CorLoss.c127 = ((127 : ℝ) : EReal) := by
  simp [Ideal.ofBits, Ideal.ieee, -EReal.coe_mul]; norm_num

/-- 128 minus the integer one is 127. -/
theorem nrm_apply (j : S_.Idx) : nrm (F := Ideal) ddof j = CorLoss.c127 := by
  unfold nrm ddof
  rw [subf_apply, constant_apply, sitofp_apply]
  show CorLoss.c128 - (((1#32 : BitVec 32).toInt : ℝ) : EReal) = CorLoss.c127
  rw [c128_eq, c127_eq, ← EReal.coe_sub]
  norm_num

theorem c127_pos : (0 : EReal) < CorLoss.c127 := by
  rw [c127_eq]; exact EReal.coe_pos.mpr (by norm_num)

/-- The divisor 127 is positive, so the variance is the quotient. -/
theorem var_apply (X : FVec Ideal S131072x128 .f32) (r : Fin 131072) :
    var X ddof (ix1 r) = Ideal.div (ssq X (ix1 r)) CorLoss.c127 := by
  unfold var
  rw [select_apply, hostDivf_at]
  have hc : broadcastInDim S131072 ![] bcast_S_S131072 (cmpf .ogt (nrm (F := Ideal) ddof) (constant S_ .f32 0x00000000#32)) (ix1 r) = 1#1 := by
    show Ideal.cmp .ogt (nrm (F := Ideal) ddof _) (Ideal.ofBits .f32 0x00000000#32) = 1#1
    rw [nrm_apply, Ideal.ofBits_zero_f32]
    simp [Ideal.cmp, c127_pos]
  have hn : broadcastInDim S131072 ![] bcast_S_S131072 (nrm (F := Ideal) ddof) (ix1 r) = CorLoss.c127 := by
    show nrm (F := Ideal) ddof _ = CorLoss.c127
    exact nrm_apply _
  rw [hc, hn, select_one]

/-- The standard deviation of a row. -/
theorem std_apply (X : FVec Ideal S131072x128 .f32) (r : Fin 131072) :
    std X ddof (ix1 r) = CorLoss.std (CorLoss.rowOf X r) := by
  unfold std CorLoss.std
  rw [hostSqrt_at, var_apply, ssq_apply]

/-- The covariance of two rows about their shifted means. -/
theorem cov_apply (X Y : FVec Ideal S131072x128 .f32) (r : Fin 131072) :
    cov X Y (ix1 r) = CorLoss.cov (CorLoss.rowOf X r) (CorLoss.rowOf Y r) := by
  unfold cov CorLoss.cov
  rw [hostDivf_at, rowSum_apply, splatVec_apply]
  refine congrArg (fun s => Ideal.div s CorLoss.c127) (Finset.sum_congr rfl fun k _ => ?_)
  rw [mulf_apply, subf_apply, subf_apply, wide_apply, wide_apply, meanEps_apply, meanEps_apply]

/-- The correlation and its cube. -/
theorem cor_apply (X Y : FVec Ideal S131072x128 .f32) (r : Fin 131072) :
    cor X Y ddof ddof (ix1 r) = CorLoss.cor (CorLoss.rowOf X r) (CorLoss.rowOf Y r) := by
  unfold cor CorLoss.cor
  rw [hostDivf_at, addf_apply, mulf_apply, cov_apply, std_apply, std_apply, splatVec_apply]

theorem cor3_apply (X Y : FVec Ideal S131072x128 .f32) (r : Fin 131072) :
    cor3 X Y ddof ddof (ix1 r) = CorLoss.cor3 (CorLoss.rowOf X r) (CorLoss.rowOf Y r) := by
  unfold cor3 CorLoss.cor3
  rw [mulf_apply, mulf_apply, cor_apply]

/-- The logarithmic term: a negation is the difference from zero. -/
theorem tl1_apply (X Y : FVec Ideal S131072x128 .f32) (r : Fin 131072) :
    tl1 X Y ddof ddof (ix1 r) = CorLoss.tl1 (CorLoss.rowOf X r) (CorLoss.rowOf Y r) := by
  unfold tl1 CorLoss.tl1
  rw [hostNegf_at, hostLog_at, hostDivf_at, addf_apply, addf_apply, cor3_apply, splatVec_apply, splatVec_apply,
    splatVec_apply, zero_sub]

/-- The maximum of a row: the fold of max from minus infinity, which the join with minus infinity leaves unchanged. -/
theorem rmax_apply (X : FVec Ideal S131072x128 .f32) (r : Fin 131072) :
    rmax X (ix1 r) = CorLoss.rowMax (CorLoss.rowOf X r) := by
  have h : S131072x128.Reduces [1] S131072 := by decide
  unfold rmax CorLoss.rowMax
  rw [maximumf_apply, splatVec_apply,
    Host.reduce_eq_fold_single FloatOps.maximumf X (constant (F := Ideal) S_ .f32 0xFF800000#32)
      reducesTo_S131072x128_S131072_d1 h h_S_ (ix1 r)]
  have hf : (X ∘ h.lift (ix1 r)) = CorLoss.rowOf X r := funext fun k => congrArg X (lift_row h r k)
  rw [hf, constant_apply]
  exact max_eq_right ((Finset.le_fold_max _).mpr (Or.inl le_rfl))

/-- The exponential of a row shifted by its maximum. -/
theorem ex_apply (X : FVec Ideal S131072x128 .f32) (r : Fin 131072) (k : Fin 128) :
    ex X (ix2 r k) = Ideal.exp (X (ix2 r k) - CorLoss.rowMax (CorLoss.rowOf X r)) := by
  unfold ex
  rw [hostExp_at, subf_apply, wide_apply, colOf_apply, rmax_apply]

/-- The softmax of a row at a lane. -/
theorem sm_apply (X : FVec Ideal S131072x128 .f32) (r : Fin 131072) (k : Fin 128) :
    sm X (ix2 r k) = CorLoss.smax (CorLoss.rowOf X r) k := by
  unfold sm CorLoss.smax
  rw [hostDivf_at, wide_apply, colOf_apply, rowSum_apply, ex_apply]
  exact congrArg (Ideal.div _) (Finset.sum_congr rfl fun j _ => ex_apply X r j)

/-- The mean absolute difference of the two softmaxes of a row pair. -/
theorem emd_apply (X Y : FVec Ideal S131072x128 .f32) (r : Fin 131072) :
    emd X Y (ix1 r) = CorLoss.emd (CorLoss.rowOf X r) (CorLoss.rowOf Y r) := by
  unfold emd CorLoss.emd
  rw [hostDivf_at, rowSum_apply, splatVec_apply]
  refine congrArg (fun s => Ideal.div s CorLoss.c128) (Finset.sum_congr rfl fun k _ => ?_)
  rw [hostAbsf_at, subf_apply, sm_apply, sm_apply]

/-- The loss of a row pair. -/
theorem lossVec_apply (X Y : FVec Ideal S131072x128 .f32) (r : Fin 131072) :
    lossVec X Y ddof ddof (ix1 r) = CorLoss.rowLoss (CorLoss.rowOf X r) (CorLoss.rowOf Y r) := by
  unfold lossVec CorLoss.rowLoss
  rw [addf_apply, mulf_apply, mulf_apply, subf_apply, hostAbsf_at, cor3_apply, tl1_apply, emd_apply, splatVec_apply]

/-- A [131072] index is its one coordinate. -/
def rowEquiv : S131072.Idx ≃ Fin 131072 where
  toFun i := i 0
  invFun r := ix1 r
  left_inv i := (eq_ix1 i).symm
  right_inv _ := rfl

/-- The sum of a [131072] vector from zero into the scalar shape is the sum over the rows. -/
theorem sumAll_apply (v : FVec Ideal S131072 .f32) (i : S_.Idx) :
    Host.reduceAdd v (constant S_ .f32 0x00000000#32) reducesTo_S131072_S_d0 h_S_ i = ∑ r : Fin 131072, v (ix1 r) := by
  refine (Ideal.hostReduceAdd_total reducesTo_S131072_S_d0 (fun b => b.elim0) v _ i).trans ?_
  rw [constant_apply, Ideal.ofBits_zero_f32, zero_add]
  exact (Equiv.sum_comp rowEquiv.symm v).symm

/-- The reference's result is the loss summed over all rows. -/
theorem out_eq_total (X Y : FVec Ideal S131072x128 .f32) (j : S1.Idx) :
    RefTerm.out X Y j = CorLoss.total X Y := by
  unfold RefTerm.out CorLoss.total shapeCast
  rw [sumAll_apply]
  exact Finset.sum_congr rfl fun r _ => lossVec_apply X Y r

end Cert.ReferenceIdeal.RefValue

end
-- ==== Proof.lean ====
/-
  The kernel and its reference compute one number: for every row of the two [131072, 128] arguments a loss of the pair of
  rows (the cube c of the correlation with eps in the denominator; |c| times the negated logarithm of (c + 1 + eps) / 2,
  plus (1 - |c|) times the mean absolute difference of the rows' softmaxes), summed over all rows. The kernel sums the
  losses tile by tile, 64 tiles of 2048 rows, into an accumulator it carries across the grid and writes out at the last
  point; the reference forms the per-row losses of the whole arrays and sums them once. At the ideal instance every
  operation of either program is the same function of extended reals as its counterpart in the other (quotients, roots,
  exponentials, logarithms, absolute values, row maxima from minus infinity), the reference's divisor 128 - 1 is the
  kernel's 127 and is positive, and the only law joining the two results is that a sum over all rows may be taken tile
  by tile: addition of extended reals is commutative and associative. Nothing here needs the inputs finite.

  The three frames: the kernel's two are the generated frame certificates; the reference's is its run with the result
  dropped. The idealization rewrote nothing, so `preserves` is trivial.
-/
import proofs.«168679_j28741921145431_1_alg».proof.Defs
import proofs.«168679_j28741921145431_1_alg».proof.Proof.Gen.Kernel
import proofs.«168679_j28741921145431_1_alg».proof.Proof.Gen.Kernel.Skeleton
import proofs.«168679_j28741921145431_1_alg».proof.Proof.Gen.Kernel.Launch
import proofs.«168679_j28741921145431_1_alg».proof.Proof.Gen.Kernel.Points
import proofs.«168679_j28741921145431_1_alg».proof.Proof.Gen.Kernel.Frame
import proofs.«168679_j28741921145431_1_alg».proof.Proof.Gen.KernelIdeal
import proofs.«168679_j28741921145431_1_alg».proof.Proof.Gen.KernelIdeal.Skeleton
import proofs.«168679_j28741921145431_1_alg».proof.Proof.Gen.KernelIdeal.Launch
import proofs.«168679_j28741921145431_1_alg».proof.Proof.Gen.KernelIdeal.Points
import proofs.«168679_j28741921145431_1_alg».proof.Proof.Gen.KernelIdeal.Frame
import proofs.«168679_j28741921145431_1_alg».proof.Proof.Gen.ReferenceIdeal
import proofs.«168679_j28741921145431_1_alg».proof.Proof.Gen.Pre_finite_inputs
import proofs.«168679_j28741921145431_1_alg».proof.Proof.KTotal
import proofs.«168679_j28741921145431_1_alg».proof.Proof.RefRun
import proofs.«168679_j28741921145431_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- At the ideal instance both programs end with the loss summed over all rows of arguments that agree. -/
theorem algebraic : Cert.algebraic_KernelIdeal_ReferenceIdeal := by
  intro m ρ m' ρ' _ hagree
  refine ⟨fun c _ => CorLoss.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.TotalValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact funext fun j => Cert.ReferenceIdeal.RefValue.out_eq_total _ _ j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
